-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S256x8192 : Shape := ⟨2, ![256, 8192]⟩
abbrev S256 : Shape := ⟨1, ![256]⟩
abbrev S256x1 : Shape := ⟨2, ![256, 1]⟩

abbrev nBuf : Space → Nat
  | .hbm => 3
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  broadcasts_S256x1_S256x8192 : S256x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x8192, .f32⟩
  | .hbm, ⟨6, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowNormalize.lean ====
/-
  Row normalization of a square array: every entry divided by the sum of its row.
  Both programs compute this function of the second argument at the exact instance; the quotient is the
  extended reals' one division on both sides, so nothing is asked of the row sum (zero or infinite
  included).
-/
import Idealize.ShloMosaic.PureOps.Ideal
import Idealize.ShloMosaic.Lib.ValueIdx

noncomputable section

open scoped BigOperators

namespace Cert.RowNormalize

open Idealize.ShloMosaic Idealize.ShloMosaic.ValueIdx

/-- Entry `(r, c)` of the array divided by the sum over `k` of the entries `(r, k)` of its row. -/
def rowNormalize (x : FVec Ideal ⟨2, ![8192, 8192]⟩ .f32) : FVec Ideal ⟨2, ![8192, 8192]⟩ .f32 :=
  fun i => Ideal.div (x i) (∑ k : Fin 8192, x (ix2 (i 0) k))

end Cert.RowNormalize

end
-- ==== Proof.KernelSide.lean ====
/-
  The kernel's result array at the exact instance is row normalization of its argument.
  Grid point `t` stages rows `256 t … 256 t + 255` of the argument whole (all 8192 columns), so the lane sum of
  row `p` of the block is the sum of row `256 t + p` of the array, and the block the point writes back is
  those rows of the row-normalized array; the 32 row blocks tile the result.
-/
import proofs.«131258_j41961830482675_1_alg».proof.Proof.Gen.KernelIdeal.Value
import proofs.«131258_j41961830482675_1_alg».proof.Proof.RowNormalize
import Idealize.ShloMosaic.PureOps.Ideal.Laws
import Idealize.ShloMosaic.Lib.ValueIdx
import Idealize.ShloMosaic.Lib.Pipeline.Value

noncomputable section

open scoped BigOperators

namespace Cert.KernelIdeal.RowValue

open Cert.KernelIdeal Cert.KernelIdeal.Gen Cert.KernelIdeal.Value Cert.RowNormalize
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One block -/

/-- The lane sum of a row block at row `p` is the sum of the block's row `p`. -/
theorem lane_sum (P : Vec Ideal S256x8192 .f32) (hacc : (0x00000000#32 : BitVec 32) = 0x00000000#32) (p : Fin 256) :
    multiReduction (F := Ideal) .add [1] S256 P 0x00000000#32 reduces_S256x8192_S256 (.inl rfl) hacc (ix1 p)
      = ∑ k : Fin 8192, P (ix2 p k) := by
  refine (Ideal.multiReduction_add_single P 0x00000000#32 reduces_S256x8192_S256 (.inl rfl) hacc (ix1 p)).trans ?_
  refine Finset.sum_congr rfl fun k _ => congrArg P (funext fun a => Fin.ext ?_)
  match a with
  | ⟨0, _⟩ => rfl
  | ⟨1, _⟩ => rfl

/-- What the body leaves at entry `(p, q)` of its block: the loaded entry over the sum of the loaded row. -/
theorem block_entry (P : Vec Ideal S256x8192 .f32) (p : Fin 256) (q : Fin 8192) :
    E1 P (ix2 p q) = Ideal.div (P (ix2 p q)) (∑ k : Fin 8192, P (ix2 p k)) := by
  have e0 : ix1_0 (ix2 p q) = ix2 p q :=
    funext fun a => Fin.ext (by match a with | ⟨0, _⟩ => rfl | ⟨1, _⟩ => rfl)
  have e1 : ix1_1 (ix2 p q) = ix1 p :=
    funext fun a => Fin.ext (by match a with | ⟨0, _⟩ => rfl)
  show Ideal.div (P (ix1_0 (ix2 p q)))
      (multiReduction (F := Ideal) .add [1] S256 P 0x00000000#32 reduces_S256x8192_S256 (.inl rfl) rfl (ix1_1 (ix2 p q))) = _
  rw [e0, e1, lane_sum P rfl p]

/-- A block that holds whole rows of an array `X` — entry `y` of the block is entry `e y` of `X`, the row of `e y`
    fixed by the row of `y` and its column the column of `y` — is left by the body holding those rows of the
    row-normalized `X`. -/
theorem block_rowNormalize (P : Vec Ideal S256x8192 .f32) (X : FVec Ideal S8192x8192 .f32)
    (e : S256x8192.Idx → S8192x8192.Idx) (hP : ∀ y, P y = X (e y))
    (hrow : ∀ y y' : S256x8192.Idx, (y 0).val = (y' 0).val → (e y 0).val = (e y' 0).val)
    (hcol : ∀ y : S256x8192.Idx, (e y 1).val = (y 1).val) (y : S256x8192.Idx) :
    View.canon ([⟨r0_0, k0_pay1 (F := Ideal) P⟩] : List (View.Piece (Elt Ideal) S256x8192 .f32)) y = rowNormalize X (e y) := by
  refine (canon1_eq P y).trans ?_
  obtain ⟨p, q, rfl⟩ : ∃ (p : Fin 256) (q : Fin 8192), y = ix2 p q := ⟨y 0, y 1, eq_ix2 y⟩
  rw [block_entry P p q]
  unfold rowNormalize
  rw [hP (ix2 p q)]
  refine congrArg (Ideal.div _) (Finset.sum_congr rfl fun k _ => ?_)
  rw [hP (ix2 p k)]
  refine congrArg X (funext fun a => Fin.ext ?_)
  match a with
  | ⟨0, _⟩ => exact hrow (ix2 p k) (ix2 p q) rfl
  | ⟨1, _⟩ => exact hcol (ix2 p k)

/-! ## The blocks on the grid -/

theorem offsets_zero : (![0, 0] : Fin 2 → Nat) = fun _ => 0 := funext fun a => by fin_cases a <;> rfl

/-- The printed index maps, decided over the 32 points: the input's block is the output's, block row `t`, block
    column 0. -/
theorem index_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) = t.val :=
  (by decide +kernel : ∀ t : Fin grid0.N, _)

/-- The input block at point `t` with its literal type. -/
abbrev rowsAt (c : Dev nD) (t : Fin cfg0.N) : Vec Ideal S256x8192 .f32 := iblk m c 0 t

/-- The argument array the region stages, with its literal type. -/
abbrev argArr (c : Dev nD) : FVec Ideal S8192x8192 .f32 := V m c main_arg1

/-- What point `t` writes back is its block of the row-normalized argument. -/
theorem flushed_eq (c : Dev nD) (t : Fin cfg0.N) :
    (dats m 0 c).flushed 1 t = ((cfg0.win 1).blk t).view.read (Elt Ideal) (rowNormalize (argArr m c)) := by
  rw [flushed1]
  unfold out0_1
  simp only [View.ld_unit_zero (S := S256x8192) offsets_zero]
  obtain ⟨f0, f1, f2, f3⟩ := index_facts t
  funext y
  show View.canon ([⟨r0_0, k0_pay1 (F := Ideal) (rowsAt m c t)⟩] : List (View.Piece (Elt Ideal) S256x8192 .f32)) y = rowNormalize (argArr m c) (((cfg0.win 1).blk t).view.emb y)
  have hemb : ((cfg0.win 1).blk t).view.emb y = ((cfg0.win 0).blk t).view.emb y := by
    funext a; apply Fin.ext
    match a with
    | ⟨0, _⟩ => show win0_1.index t (0 : Fin 2) * 256 + 1 * (y 0).val = win0_0.index t (0 : Fin 2) * 256 + 1 * (y 0).val; omega
    | ⟨1, _⟩ => show win0_1.index t (1 : Fin 2) * 8192 + 1 * (y 1).val = win0_0.index t (1 : Fin 2) * 8192 + 1 * (y 1).val; omega
  rw [hemb]
  refine block_rowNormalize (rowsAt m c t) (argArr m c) (fun z => ((cfg0.win 0).blk t).view.emb z) (fun z => rfl) ?_ ?_ y
  · intro z z' hz
    show win0_0.index t (0 : Fin 2) * 256 + 1 * (z 0).val = win0_0.index t (0 : Fin 2) * 256 + 1 * (z' 0).val
    omega
  · intro z
    show win0_0.index t (1 : Fin 2) * 8192 + 1 * (z 1).val = (z 1).val
    omega

/-- An index of the result array is in point `t`'s block iff each coordinate is in the block's range. -/
theorem mem_block (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- Row `r` of the result lies in the block of point `r / 256`: the row blocks tile the array. -/
theorem covered (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  have hN : cfg0.N = 32 := N_0
  let t : Fin cfg0.N := ⟨(i 0).val / 256, by rw [hN]; omega⟩
  obtain ⟨f0, f1, f2, f3⟩ := index_facts t
  have ht : t.val = (i 0).val / 256 := rfl
  refine ⟨t, flush0_1 t, ?_⟩
  rw [mem_block]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 8192 ≤ (i 1).val ∧ (i 1).val < win0_1.index t (1 : Fin 2) * 8192 + 8192; omega

/-- The result array after the run is the row-normalized argument. -/
theorem final (c : Dev nD) :
    (dats m 0 c).arrAt 1 cfg0.N = rowNormalize (m ((c : Thread nD τ).loc main_arg1)) :=
  (dats m 0 c).arrAt_eq_of_cover 1 (rowNormalize (argArr m c)) (fun t _ => flushed_eq m c t) covered

/-- The run, read: the result array at the row-normalized second argument, both arguments unchanged. -/
theorem run : θ_run defs (onTc (τ := τ) (main (F := Ideal))) ⟨m, fun _ => 0, ρ⟩ fun r => ∀ c : Dev nD,
      r.2.mem ((c : Thread nD τ).loc main_v0) = rowNormalize (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.RowValue

end
-- ==== Proof.RefSide.lean ====
/-
  The reference at the exact instance is row normalization: its row sum starts from the constant zero and
  adds the row's entries, the two broadcasts carry the sum of row `r` to every entry `(r, c)`, and the host's
  quotient is the extended reals' division.
-/
import proofs.«131258_j41961830482675_1_alg».proof.Proof.Gen.ReferenceIdeal.Run
import proofs.«131258_j41961830482675_1_alg».proof.Proof.Gen.ReferenceIdeal.Read
import proofs.«131258_j41961830482675_1_alg».proof.Proof.RowNormalize
import Idealize.ShloMosaic.PureOps.Ideal.Laws

noncomputable section

open scoped BigOperators

namespace Cert.ReferenceIdeal.RefValue

open Cert.ReferenceIdeal Cert.ReferenceIdeal.Gen Cert.ReferenceIdeal.Read Cert.RowNormalize
open Idealize.ShloMosaic Idealize.ShloMosaic.ValueIdx

/-- The entry the row sum of entry `i` reads at `k`, through the two broadcasts, is `(i 0, k)`. -/
theorem row_index (i : S8192x8192.Idx) (k : Fin 8192) :
    idx_main_v0 (idx_main_v1 (idx_main_v2 i)) k = ix2 (i 0) k :=
  funext fun a => Fin.ext (by match a with | ⟨0, _⟩ => rfl | ⟨1, _⟩ => rfl)

/-- The reference's last stage is the row normalization of its second argument. -/
theorem reference_eq (x : FVec Ideal S8192x8192 .f32) : val_main_v3 (F := Ideal) x = rowNormalize x := by
  funext i
  rw [val_main_v3_apply, val_main_v2_apply, val_main_v1_apply, val_main_v0_apply, val_main_cst_apply]
  simp only [Ideal.hostDivf_def, Ideal.ofBits_def, Ideal.ofBits_zero_f32, zero_add, row_index]
  rfl

end Cert.ReferenceIdeal.RefValue

end
-- ==== Proof.lean ====
/-
  Row-degree normalization of an adjacency matrix: the kernel divides each 256-row block of the second argument
  by its rows' sums, the reference divides the whole array by its broadcast row sums, and the first argument
  is returned as it is. At the exact instance both results are ONE function of the second argument — entry
  `(r, c)` over the sum of row `r` (Proof/RowNormalize.lean) — because a block holds its rows whole, so a block's
  lane sum is the array's row sum, and both quotients are the extended reals' division. No law that needs
  finiteness is used. The frames of the two kernel programs are the generated ones; the reference's frame is its
  generated run with the results dropped; the idealization rewrote nothing.
-/
import proofs.«131258_j41961830482675_1_alg».proof.Defs
import proofs.«131258_j41961830482675_1_alg».proof.Proof.Gen.Kernel
import proofs.«131258_j41961830482675_1_alg».proof.Proof.Gen.Kernel.Frame
import proofs.«131258_j41961830482675_1_alg».proof.Proof.Gen.KernelIdeal
import proofs.«131258_j41961830482675_1_alg».proof.Proof.Gen.KernelIdeal.Frame
import proofs.«131258_j41961830482675_1_alg».proof.Proof.Gen.ReferenceIdeal
import proofs.«131258_j41961830482675_1_alg».proof.Proof.Gen.Pre_finite_inputs
import proofs.«131258_j41961830482675_1_alg».proof.Proof.KernelSide
import proofs.«131258_j41961830482675_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => ⟨(h c).1, (h c).2.2.2⟩)
    (Cert.ReferenceIdeal.Value.run (F := Ideal) m ρ)

/-- Both runs end with the first argument unchanged and the second result at the row-normalized second
    argument; the arguments agree, so the results do. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.RowNormalize.rowNormalize (m ((c.tc : Thread Cert.KernelIdeal.nD Cert.KernelIdeal.τ).loc Cert.KernelIdeal.main_arg1)), ?_, ?_⟩
  · exact (θ_run Cert.KernelIdeal.defs _ _).mono
      (fun _ h c => ⟨(h c).2.1, (h c).1, (h c).2.1, (h c).2.2⟩)
      (Cert.KernelIdeal.RowValue.run m ρ)
  · refine (θ_run Cert.ReferenceIdeal.defs _ _).mono (fun _ h c => ⟨(h c).1.trans (hagree c).1, ?_, (h c).2.2.1, (h c).2.2.2⟩)
      (Cert.ReferenceIdeal.Value.run (F := Ideal) m' ρ')
    rw [(h c).2.1, Cert.ReferenceIdeal.Read.val_main_v3_eq, Cert.ReferenceIdeal.RefValue.reference_eq, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
